-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x7x45 : Shape := ⟨3, ![8, 7, 45]⟩
abbrev S8x4096x5120 : Shape := ⟨3, ![8, 4096, 5120]⟩
abbrev S45x5120 : Shape := ⟨2, ![45, 5120]⟩
abbrev S5120 : Shape := ⟨1, ![5120]⟩
abbrev S_ : Shape := ⟨0, ![]⟩

class Facts : Prop where
  bcast_S_S8x7x45 : S_.BroadcastsInDim S8x7x45 (![] : Fin 0 → Fin S8x7x45.rank)
  reducesTo_S8x7x45_S_d0_1_2 : S8x7x45.ReducesTo [0, 1, 2] S_
  h_S_ : 0 < S_.numel
  bcast_S_S8x4096x5120 : S_.BroadcastsInDim S8x4096x5120 (![] : Fin 0 → Fin S8x4096x5120.rank)
  reducesTo_S8x4096x5120_S_d0_1_2 : S8x4096x5120.ReducesTo [0, 1, 2] S_
  bcast_S_S45x5120 : S_.BroadcastsInDim S45x5120 (![] : Fin 0 → Fin S45x5120.rank)
  reducesTo_S45x5120_S_d0_1 : S45x5120.ReducesTo [0, 1] S_
  bcast_S_S5120 : S_.BroadcastsInDim S5120 (![] : Fin 0 → Fin S5120.rank)
  reducesTo_S5120_S_d0 : S5120.ReducesTo [0] S_

variable [Facts]

def fn_part1 {F : FTy → Type} [FloatOps F] (main_v13 : IVec S_ 1) (main_v16 : IVec S5120 1) : IVec S_ 1 :=
  let main_c_5 : IVec S_ 1 := constantI S_ 1 1#1
  let main_v17 : IVec S_ 1 := (fun x v => Host.reduce IntOp.andi x v reducesTo_S5120_S_d0 h_S_) main_v16 main_c_5
  let main_v18 : IVec S_ 1 := andi main_v13 main_v17
  main_v18

def fn {F : FTy → Type} [FloatOps F] (main_arg0 : FVec F S8x7x45 .f32) (main_arg1 : FVec F S8x4096x5120 .f32) (main_arg2 : FVec F S45x5120 .f32) (main_arg3 : FVec F S5120 .f32) : IVec S_ 1 :=
  let main_v0 : FVec F S8x7x45 .f32 := Host.absf main_arg0
  let main_cst : FVec F S_ .f32 := constant S_ .f32 0x7F800000#32
  let main_v1 : FVec F S8x7x45 .f32 := broadcastInDim S8x7x45 ![] bcast_S_S8x7x45 main_cst
  let main_v2 : IVec S8x7x45 1 := cmpf .olt main_v0 main_v1
  let main_c : IVec S_ 1 := constantI S_ 1 1#1
  let main_v3 : IVec S_ 1 := (fun x v => Host.reduce IntOp.andi x v reducesTo_S8x7x45_S_d0_1_2 h_S_) main_v2 main_c
  let main_v4 : FVec F S8x4096x5120 .f32 := Host.absf main_arg1
  let main_cst_0 : FVec F S_ .f32 := constant S_ .f32 0x7F800000#32
  let main_v5 : FVec F S8x4096x5120 .f32 := broadcastInDim S8x4096x5120 ![] bcast_S_S8x4096x5120 main_cst_0
  let main_v6 : IVec S8x4096x5120 1 := cmpf .olt main_v4 main_v5
  let main_c_1 : IVec S_ 1 := constantI S_ 1 1#1
  let main_v7 : IVec S_ 1 := (fun x v => Host.reduce IntOp.andi x v reducesTo_S8x4096x5120_S_d0_1_2 h_S_) main_v6 main_c_1
  let main_v8 : IVec S_ 1 := andi main_v3 main_v7
  let main_v9 : FVec F S45x5120 .f32 := Host.absf main_arg2
  let main_cst_2 : FVec F S_ .f32 := constant S_ .f32 0x7F800000#32
  let main_v10 : FVec F S45x5120 .f32 := broadcastInDim S45x5120 ![] bcast_S_S45x5120 main_cst_2
  let main_v11 : IVec S45x5120 1 := cmpf .olt main_v9 main_v10
  let main_c_3 : IVec S_ 1 := constantI S_ 1 1#1
  let main_v12 : IVec S_ 1 := (fun x v => Host.reduce IntOp.andi x v reducesTo_S45x5120_S_d0_1 h_S_) main_v11 main_c_3
  let main_v13 : IVec S_ 1 := andi main_v8 main_v12
  let main_v14 : FVec F S5120 .f32 := Host.absf main_arg3
  let main_cst_4 : FVec F S_ .f32 := constant S_ .f32 0x7F800000#32
  let main_v15 : FVec F S5120 .f32 := broadcastInDim S5120 ![] bcast_S_S5120 main_cst_4
  let main_v16 : IVec S5120 1 := cmpf .olt main_v14 main_v15
  fn_part1 (F := F) main_v13 main_v16
-- ==== Kernel.lean ====
abbrev S8x7x45 : Shape := ⟨3, ![8, 7, 45]⟩
abbrev S8x4096x5120 : Shape := ⟨3, ![8, 4096, 5120]⟩
abbrev S45x5120 : Shape := ⟨2, ![45, 5120]⟩
abbrev S5120 : Shape := ⟨1, ![5120]⟩
abbrev S_ : Shape := ⟨0, ![]⟩
abbrev S8x7 : Shape := ⟨2, ![8, 7]⟩
abbrev S8x7x1 : Shape := ⟨3, ![8, 7, 1]⟩
abbrev S8x1x5120 : Shape := ⟨3, ![8, 1, 5120]⟩
abbrev S1x512x5120 : Shape := ⟨3, ![1, 512, 5120]⟩
abbrev S1x1x5120 : Shape := ⟨3, ![1, 1, 5120]⟩
abbrev S1x5120 : Shape := ⟨2, ![1, 5120]⟩
abbrev S8x5120 : Shape := ⟨2, ![8, 5120]⟩
abbrev S8x45 : Shape := ⟨2, ![8, 45]⟩
abbrev S8 : Shape := ⟨1, ![8]⟩
abbrev S8x1 : Shape := ⟨2, ![8, 1]⟩

abbrev nBuf : Space → Nat
  | .hbm => 43
  | .vmem => 5
  | .smem => 0
  | _ => 0

abbrev bufTy : (tb : Table) → Fin (tcTables nBuf tb) → BufTy
  | .hbm, ⟨0, _⟩ => ⟨S8x7x45, .f32⟩
  | .hbm, ⟨1, _⟩ => ⟨S8x4096x5120, .f32⟩
  | .hbm, ⟨2, _⟩ => ⟨S45x5120, .f32⟩
  | .hbm, ⟨3, _⟩ => ⟨S5120, .f32⟩
  | .hbm, ⟨4, _⟩ => ⟨S_, .f32⟩
  | .hbm, ⟨5, _⟩ => ⟨S8x7, .f32⟩
  | .hbm, ⟨6, _⟩ => ⟨S8x7x1, .f32⟩
  | .hbm, ⟨7, _⟩ => ⟨S_, .f32⟩
  | .hbm, ⟨8, _⟩ => ⟨S8x7, .f32⟩
  | .hbm, ⟨9, _⟩ => ⟨S8x7x1, .f32⟩
  | .hbm, ⟨10, _⟩ => ⟨S8x7x1, .i1⟩
  | .hbm, ⟨11, _⟩ => ⟨S8x7x45, .f32⟩
  | .hbm, ⟨12, _⟩ => ⟨S8x7x45, .f32⟩
  | .hbm, ⟨13, _⟩ => ⟨S8x7x1, .f32⟩
  | .hbm, ⟨14, _⟩ => ⟨S8x7x45, .f32⟩
  | .hbm, ⟨15, _⟩ => ⟨S8x7x45, .f32⟩
  | .hbm, ⟨16, _⟩ => ⟨S8x7x45, .i1⟩
  | .hbm, ⟨17, _⟩ => ⟨S8x7x45, .f32⟩
  | .hbm, ⟨18, _⟩ => ⟨S8x1x5120, .f32⟩
  | .hbm, ⟨19, _⟩ => ⟨S8x5120, .f32⟩
  | .hbm, ⟨20, _⟩ => ⟨S_, .f32⟩
  | .hbm, ⟨21, _⟩ => ⟨S8x5120, .f32⟩
  | .hbm, ⟨22, _⟩ => ⟨S8x5120, .f32⟩
  | .hbm, ⟨23, _⟩ => ⟨S_, .f32⟩
  | .hbm, ⟨24, _⟩ => ⟨S8x45, .f32⟩
  | .hbm, ⟨25, _⟩ => ⟨S_, .f32⟩
  | .hbm, ⟨26, _⟩ => ⟨S8x45, .f32⟩
  | .hbm, ⟨27, _⟩ => ⟨S8x45, .f32⟩
  | .hbm, ⟨28, _⟩ => ⟨S8x5120, .f32⟩
  | .hbm, ⟨29, _⟩ => ⟨S1x5120, .f32⟩
  | .hbm, ⟨30, _⟩ => ⟨S8x5120, .f32⟩
  | .hbm, ⟨31, _⟩ => ⟨S8x5120, .f32⟩
  | .hbm, ⟨32, _⟩ => ⟨S8x5120, .f32⟩
  | .hbm, ⟨33, _⟩ => ⟨S_, .f32⟩
  | .hbm, ⟨34, _⟩ => ⟨S8, .f32⟩
  | .hbm, ⟨35, _⟩ => ⟨S8x1, .f32⟩
  | .hbm, ⟨36, _⟩ => ⟨S8x1, .f32⟩
  | .hbm, ⟨37, _⟩ => ⟨S_, .f32⟩
  | .hbm, ⟨38, _⟩ => ⟨S8x1, .f32⟩
  | .hbm, ⟨39, _⟩ => ⟨S8x1, .f32⟩
  | .hbm, ⟨40, _⟩ => ⟨S8x5120, .f32⟩
  | .hbm, ⟨41, _⟩ => ⟨S8x5120, .f32⟩
  | .hbm, ⟨42, _⟩ => ⟨S8x5120, .f32⟩
  | .local _ .vmem, ⟨0, _⟩ => ⟨S1x512x5120, .f32⟩
  | .local _ .vmem, ⟨1, _⟩ => ⟨S1x512x5120, .f32⟩
  | .local _ .vmem, ⟨2, _⟩ => ⟨S1x1x5120, .f32⟩
  | .local _ .vmem, ⟨3, _⟩ => ⟨S1x1x5120, .f32⟩
  | .local _ .vmem, ⟨4, _⟩ => ⟨S1x1x5120, .f32⟩
  | _, _ => ⟨S8x7x45, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  reducesTo_S8x7x45_S8x7_d2 : S8x7x45.ReducesTo [2] S8x7
  h_S_ : 0 < S_.numel
  bcast_S8x7_S8x7x1_0_1 : S8x7.BroadcastsInDim S8x7x1 (![0, 1] : Fin 2 → Fin S8x7x1.rank)
  bcast_S8x7x1_S8x7x45_0_1_2 : S8x7x1.BroadcastsInDim S8x7x45 (![0, 1, 2] : Fin 3 → Fin S8x7x45.rank)
  inb_S1x1x5120_S1x1x5120_0_0_0 : ∀ a, (![0, 0, 0] : Fin 3 → Nat) a + S1x1x5120.size a ≤ S1x1x5120.size a
  h_S1x1x5120 : 0 < S1x1x5120.numel
  shapeCasts_S1x1x5120_S1x1x5120 : S1x1x5120.ShapeCasts S1x1x5120
  inb_S1x512x5120_S1x512x5120_0_0_0 : ∀ a, (![0, 0, 0] : Fin 3 → Nat) a + S1x512x5120.size a ≤ S1x512x5120.size a
  h_S1x512x5120 : 0 < S1x512x5120.numel
  reduces_S1x512x5120_S1x5120 : S1x512x5120.Reduces [1] S1x5120
  shapeCasts_S1x5120_S1x1x5120 : S1x5120.ShapeCasts S1x1x5120
  shapeCasts_S8x1x5120_S8x5120 : S8x1x5120.ShapeCasts S8x5120
  bcast_S_S8x5120 : S_.BroadcastsInDim S8x5120 (![] : Fin 0 → Fin S8x5120.rank)
  reducesTo_S8x7x45_S8x45_d1 : S8x7x45.ReducesTo [1] S8x45
  bcast_S_S8x45 : S_.BroadcastsInDim S8x45 (![] : Fin 0 → Fin S8x45.rank)
  bcast_S5120_S1x5120_1 : S5120.BroadcastsInDim S1x5120 (![1] : Fin 1 → Fin S1x5120.rank)
  bcast_S1x5120_S8x5120_0_1 : S1x5120.BroadcastsInDim S8x5120 (![0, 1] : Fin 2 → Fin S8x5120.rank)
  reducesTo_S8x5120_S8_d1 : S8x5120.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x5120_0_1 : S8x1.BroadcastsInDim S8x5120 (![0, 1] : Fin 2 → Fin S8x5120.rank)
  dot_S8x45_S45x5120_S8x5120_1_0_0_1_n_n_wf : DotDims.WF S8x45 S45x5120 S8x5120 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x5120.size a ≤ S8x4096x5120.size a
  hwx0_0 : ∀ i : grid0.Coords, EltTy.bits .f32 = 32 ∨ (Rect.block (s := S8x4096x5120) S1x512x5120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5120.size a ≤ S8x1x5120.size a
  hwx0_1 : ∀ i : grid0.Coords, EltTy.bits .f32 = 32 ∨ (Rect.block (s := S8x1x5120) S1x1x5120.size (cc0_transform_1 i) (hinb0_1 i)).WholeWords (EltTy.packing .f32)

variable [Facts₀]

def dot_S8x45_S45x5120_S8x5120_1_0_0_1_n_n : DotDims S8x45 S45x5120 S8x5120 where
  lhsContracting := [1]
  rhsContracting := [0]
  lhsNonContracting := [0]
  rhsNonContracting := [1]
  lhsBatch := []
  rhsBatch := []
  wf := dot_S8x45_S45x5120_S8x5120_1_0_0_1_n_n_wf

abbrev win0_0 : Pipeline.Window sig grid0 :=
  Pipeline.Window.ofSpec (Memref.whole main_arg1) S1x512x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x1x5120.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x7x45 : Shape := ⟨3, ![8, 7, 45]⟩
abbrev S8x4096x5120 : Shape := ⟨3, ![8, 4096, 5120]⟩
abbrev S45x5120 : Shape := ⟨2, ![45, 5120]⟩
abbrev S5120 : Shape := ⟨1, ![5120]⟩
abbrev S_ : Shape := ⟨0, ![]⟩
abbrev S8x7 : Shape := ⟨2, ![8, 7]⟩
abbrev S8x7x1 : Shape := ⟨3, ![8, 7, 1]⟩
abbrev S8x5120 : Shape := ⟨2, ![8, 5120]⟩
abbrev S8x45 : Shape := ⟨2, ![8, 45]⟩
abbrev S1x5120 : Shape := ⟨2, ![1, 5120]⟩
abbrev S8 : Shape := ⟨1, ![8]⟩
abbrev S8x1 : Shape := ⟨2, ![8, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x7x45, .f32⟩
  | .hbm, ⟨1, _⟩ => ⟨S8x4096x5120, .f32⟩
  | .hbm, ⟨2, _⟩ => ⟨S45x5120, .f32⟩
  | .hbm, ⟨3, _⟩ => ⟨S5120, .f32⟩
  | .hbm, ⟨4, _⟩ => ⟨S_, .f32⟩
  | .hbm, ⟨5, _⟩ => ⟨S8x7, .f32⟩
  | .hbm, ⟨6, _⟩ => ⟨S8x7x1, .f32⟩
  | .hbm, ⟨7, _⟩ => ⟨S_, .f32⟩
  | .hbm, ⟨8, _⟩ => ⟨S8x7, .f32⟩
  | .hbm, ⟨9, _⟩ => ⟨S8x7x1, .f32⟩
  | .hbm, ⟨10, _⟩ => ⟨S8x7x1, .i1⟩
  | .hbm, ⟨11, _⟩ => ⟨S8x7x45, .f32⟩
  | .hbm, ⟨12, _⟩ => ⟨S8x7x45, .f32⟩
  | .hbm, ⟨13, _⟩ => ⟨S8x7x1, .f32⟩
  | .hbm, ⟨14, _⟩ => ⟨S8x7x45, .f32⟩
  | .hbm, ⟨15, _⟩ => ⟨S8x7x45, .f32⟩
  | .hbm, ⟨16, _⟩ => ⟨S8x7x45, .i1⟩
  | .hbm, ⟨17, _⟩ => ⟨S8x7x45, .f32⟩
  | .hbm, ⟨18, _⟩ => ⟨S_, .f32⟩
  | .hbm, ⟨19, _⟩ => ⟨S8x5120, .f32⟩
  | .hbm, ⟨20, _⟩ => ⟨S_, .f32⟩
  | .hbm, ⟨21, _⟩ => ⟨S8x5120, .f32⟩
  | .hbm, ⟨22, _⟩ => ⟨S8x5120, .f32⟩
  | .hbm, ⟨23, _⟩ => ⟨S_, .f32⟩
  | .hbm, ⟨24, _⟩ => ⟨S8x45, .f32⟩
  | .hbm, ⟨25, _⟩ => ⟨S_, .f32⟩
  | .hbm, ⟨26, _⟩ => ⟨S8x45, .f32⟩
  | .hbm, ⟨27, _⟩ => ⟨S8x45, .f32⟩
  | .hbm, ⟨28, _⟩ => ⟨S8x5120, .f32⟩
  | .hbm, ⟨29, _⟩ => ⟨S1x5120, .f32⟩
  | .hbm, ⟨30, _⟩ => ⟨S8x5120, .f32⟩
  | .hbm, ⟨31, _⟩ => ⟨S8x5120, .f32⟩
  | .hbm, ⟨32, _⟩ => ⟨S8x5120, .f32⟩
  | .hbm, ⟨33, _⟩ => ⟨S_, .f32⟩
  | .hbm, ⟨34, _⟩ => ⟨S8, .f32⟩
  | .hbm, ⟨35, _⟩ => ⟨S8x1, .f32⟩
  | .hbm, ⟨36, _⟩ => ⟨S8x1, .f32⟩
  | .hbm, ⟨37, _⟩ => ⟨S_, .f32⟩
  | .hbm, ⟨38, _⟩ => ⟨S8x1, .f32⟩
  | .hbm, ⟨39, _⟩ => ⟨S8x1, .f32⟩
  | .hbm, ⟨40, _⟩ => ⟨S8x5120, .f32⟩
  | .hbm, ⟨41, _⟩ => ⟨S8x5120, .f32⟩
  | .hbm, ⟨42, _⟩ => ⟨S8x5120, .f32⟩
  | _, _ => ⟨S8x7x45, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  reducesTo_S8x7x45_S8x7_d2 : S8x7x45.ReducesTo [2] S8x7
  h_S_ : 0 < S_.numel
  bcast_S8x7_S8x7x1_0_1 : S8x7.BroadcastsInDim S8x7x1 (![0, 1] : Fin 2 → Fin S8x7x1.rank)
  bcast_S8x7x1_S8x7x45_0_1_2 : S8x7x1.BroadcastsInDim S8x7x45 (![0, 1, 2] : Fin 3 → Fin S8x7x45.rank)
  reducesTo_S8x4096x5120_S8x5120_d1 : S8x4096x5120.ReducesTo [1] S8x5120
  bcast_S_S8x5120 : S_.BroadcastsInDim S8x5120 (![] : Fin 0 → Fin S8x5120.rank)
  reducesTo_S8x7x45_S8x45_d1 : S8x7x45.ReducesTo [1] S8x45
  bcast_S_S8x45 : S_.BroadcastsInDim S8x45 (![] : Fin 0 → Fin S8x45.rank)
  bcast_S5120_S1x5120_1 : S5120.BroadcastsInDim S1x5120 (![1] : Fin 1 → Fin S1x5120.rank)
  bcast_S1x5120_S8x5120_0_1 : S1x5120.BroadcastsInDim S8x5120 (![0, 1] : Fin 2 → Fin S8x5120.rank)
  reducesTo_S8x5120_S8_d1 : S8x5120.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x5120_0_1 : S8x1.BroadcastsInDim S8x5120 (![0, 1] : Fin 2 → Fin S8x5120.rank)
  dot_S8x45_S45x5120_S8x5120_1_0_0_1_n_n_wf : DotDims.WF S8x45 S45x5120 S8x5120 [1] [0] [0] [1] [] []

variable [Facts₀]

def dot_S8x45_S45x5120_S8x5120_1_0_0_1_n_n : DotDims S8x45 S45x5120 S8x5120 where
  lhsContracting := [1]
  rhsContracting := [0]
  lhsNonContracting := [0]
  rhsNonContracting := [1]
  lhsBatch := []
  rhsBatch := []
  wf := dot_S8x45_S45x5120_S8x5120_1_0_0_1_n_n_wf

class Facts : Prop extends Facts₀ where

variable [Facts]
-- ==== Proof.KernelTail.lean ====
/-
  The kernel's program around its pallas_call: what the host operations before and after the region compute, as
  two functions of the arguments and of the array the region leaves.
-/
import proofs.«163014_j8169027797036_1_alg».proof.Proof.Gen.KernelIdeal.Frame
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen

variable {F : FTy → Type} [FloatOps F]

/-- The series branch: the mean over the 7 channels, projected by `W`, plus the bias. -/
def seriesEmb (x : FVec F S8x7x45 .f32) (W : FVec F S45x5120 .f32) (b : FVec F S5120 .f32) : FVec F S8x5120 .f32 :=
  addf (Host.dotGeneral dot_S8x45_S45x5120_S8x5120_1_0_0_1_n_n none
      (Host.divf (Host.reduceAdd x (constant (F := F) S_ .f32 0x00000000#32) reducesTo_S8x7x45_S8x45_d1 h_S_)
        (broadcastInDim S8x45 ![] bcast_S_S8x45 (constant (F := F) S_ .f32 0x40E00000#32))) W)
    (broadcastInDim S8x5120 ![0, 1] bcast_S1x5120_S8x5120_0_1 (broadcastInDim S1x5120 ![1] bcast_S5120_S1x5120_1 b))

/-- The Euclidean norm of each row, kept as a column and clamped below by the literal `0x2B8CBCCC`. -/
def rowNorm (e : FVec F S8x5120 .f32) : FVec F S8x1 .f32 :=
  maximumf (Host.sqrt (broadcastInDim S8x1 ![0] bcast_S8_S8x1_0
      (Host.reduceAdd (mulf e e) (constant (F := F) S_ .f32 0x00000000#32) reducesTo_S8x5120_S8_d1 h_S_)))
    (broadcastInDim S8x1 ![] bcast_S_S8x1 (constant (F := F) S_ .f32 0x2B8CBCCC#32))

/-- THE FIRST RESULT as a function of the sequence sums `S : [8, 5120]` of the hidden states and of the other three
    arguments: `S / 4096` plus the series branch divided by its clamped row norms. -/
def fused (S : FVec F S8x5120 .f32) (x : FVec F S8x7x45 .f32) (W : FVec F S45x5120 .f32) (b : FVec F S5120 .f32) :
    FVec F S8x5120 .f32 :=
  addf (Host.divf S (broadcastInDim S8x5120 ![] bcast_S_S8x5120 (constant (F := F) S_ .f32 0x45800000#32)))
    (Host.divf (seriesEmb x W b) (broadcastInDim S8x5120 ![0, 1] bcast_S8x1_S8x5120_0_1 (rowNorm (seriesEmb x W b))))

/-- The minimum of each (batch, channel) row over time, kept as `[8, 7, 1]`. -/
def rowMin (x : FVec F S8x7x45 .f32) : FVec F S8x7x1 .f32 :=
  broadcastInDim S8x7x1 ![0, 1] bcast_S8x7_S8x7x1_0_1
    (Host.reduce FloatOps.minimumf x (constant (F := F) S_ .f32 0x7F800000#32) reducesTo_S8x7x45_S8x7_d2 h_S_)

/-- The maximum likewise. -/
def rowMax (x : FVec F S8x7x45 .f32) : FVec F S8x7x1 .f32 :=
  broadcastInDim S8x7x1 ![0, 1] bcast_S8x7_S8x7x1_0_1
    (Host.reduce FloatOps.maximumf x (constant (F := F) S_ .f32 0xFF800000#32) reducesTo_S8x7x45_S8x7_d2 h_S_)

/-- THE SECOND RESULT: the min–max normalisation of `x` over time, `x` itself where a row's maximum is not above its
    minimum. -/
def xnorm (x : FVec F S8x7x45 .f32) : FVec F S8x7x45 .f32 :=
  select (broadcastInDim S8x7x45 ![0, 1, 2] bcast_S8x7x1_S8x7x45_0_1_2 (cmpf .ogt (rowMax x) (rowMin x)))
    (Host.divf (subf x (broadcastInDim S8x7x45 ![0, 1, 2] bcast_S8x7x1_S8x7x45_0_1_2 (rowMin x)))
      (broadcastInDim S8x7x45 ![0, 1, 2] bcast_S8x7x1_S8x7x45_0_1_2 (subf (rowMax x) (rowMin x))))
    x

variable (m : (ℓ : Loc nD τ sig) → Buf (Elt F) ℓ)

set_option maxHeartbeats 2000000 in
/-- After the host operations that follow the region, the first result is `fused` of the region's array reshaped to
    `[8, 5120]` and of the arguments as launched. -/
theorem tail_v27 (c : Dev nD) :
    Pipeline.afterTail₀ cfgs (dats m) 0 (V0 m) [hostOps1, hostOps1_1, hostOps1_2] c main_v27
      = fused (shapeCast S8x5120 ((dats m 0 c).arrAt 1 cfg0.N) shapeCasts_S8x1x5120_S8x5120)
          (m ((c : Thread nD τ).loc main_arg0)) (m ((c : Thread nD τ).loc main_arg2)) (m ((c : Thread nD τ).loc main_arg3)) := by
  unfold Pipeline.afterTail₀
  simp only [hostOps1, hostOps1_1, hostOps1_2, List.flatten_cons, List.flatten_nil, List.append_nil, List.cons_append,
    List.nil_append]
  after_results_simp
  have e11 : Pipeline.withArrays (cfgs 0).spec c (V0 m c) (fun w => (dats m 0 c).arrAt w (cfgs 0).N) (Proc.devRef .tc main_v11)
      = (dats m 0 c).arrAt 1 cfg0.N := Pipeline.withArrays_arr spec0 launch0.win.arr_inj c _ _ 1
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  rw [e11, e0, e2, e3]
  rfl

set_option maxHeartbeats 2000000 in
/-- The second result is written before the region and touched by nothing after it: `xnorm` of the first argument. -/
theorem tail_v10 (c : Dev nD) :
    Pipeline.afterTail₀ cfgs (dats m) 0 (V0 m) [hostOps1, hostOps1_1, hostOps1_2] c main_v10
      = xnorm (m ((c : Thread nD τ).loc main_arg0)) := by
  unfold Pipeline.afterTail₀
  simp only [hostOps1, hostOps1_1, hostOps1_2, List.flatten_cons, List.flatten_nil, List.append_nil, List.cons_append,
    List.nil_append]
  after_results_simp
  rw [Pipeline.withArrays_of_ne _ c (V0 m c) _ main_v10 (by exact (by decide : ∀ w, Pipeline.arrRef spec0 w ≠ main_v10))]
  dsimp only [V0]
  simp only [hostOps0, hostOps0_1, List.flatten_cons, List.flatten_nil, List.append_nil, List.cons_append,
    List.nil_append]
  after_results_simp
  rfl

end Cert.KernelIdeal.Tail

end
-- ==== Proof.KernelPieces.lean ====
/-
  What one run of the mean-pool body leaves behind, case by case. The body has three control cases on the sequence
  tile `s` of the grid point: the first tile (`s = 0`: the accumulator is reset, then gains the tile's column sums),
  a middle tile (the accumulator gains the tile's column sums over what the point before left), and the last tile
  (`s = 7`: as a middle tile, and the accumulator is then copied to the output block). In every case what is left is
  the body's one arithmetic step `acc + colsum(tile)`, applied to the zero block or to the previous accumulator.
-/
import proofs.«163014_j8169027797036_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access. -/
theorem hz : (![0, 0, 0] : Fin 3 → Nat) = fun _ => 0 := funext fun a => by fin_cases a <;> rfl

/-- A middle tile: the accumulator, found at `xs`, is left at the step applied to `xs` and the tile `x`. -/
theorem sout_B (c : Dev nD) (i : grid0.Coords) (a2 : Memref sig .tc .vmem S1x512x5120 .f32) (h2 : a2.IsWhole)
    (a3 : Memref sig .tc .vmem S1x1x5120 .f32) (h3 : a3.IsWhole) (a4 : Memref sig .tc .vmem S1x1x5120 .f32) (h4 : a4.IsWhole)
    (hc0 : ¬cond0_0 i) (hc1 : ¬cond0_1 i) (x : Vec F S1x512x5120 .f32) (xs : Vec F S1x1x5120 .f32) :
    sout0_B_0 c i a2 h2 a3 h3 a4 h4 hc0 hc1 x xs = k0_pay2 xs x := by
  unfold sout0_B_0
  rw [View.read_writes_eq_canon _ _ _ (scover0_B_0 c i a2 h2 a3 h3 a4 h4 hc0 hc1 x xs)]
  unfold kernelRun0_B
  dsimp only
  sl_unfold_words
  rw [View.canon_unit_zero hz]
  simp only [View.readAt_eq_ld, h4.read_unread, h2.read_unread, View.ld_unit_zero (S := S1x1x5120) hz,
    View.ld_unit_zero (S := S1x512x5120) hz]

/-- The first tile: the accumulator is left at the step applied to the reset value and the tile `x`. -/
theorem sout_A (c : Dev nD) (i : grid0.Coords) (a2 : Memref sig .tc .vmem S1x512x5120 .f32) (h2 : a2.IsWhole)
    (a3 : Memref sig .tc .vmem S1x1x5120 .f32) (h3 : a3.IsWhole) (a4 : Memref sig .tc .vmem S1x1x5120 .f32) (h4 : a4.IsWhole)
    (hc0 : cond0_0 i) (hc1 : ¬cond0_1 i) (x : Vec F S1x512x5120 .f32) :
    sout0_A_0 c i a2 h2 a3 h3 a4 h4 hc0 hc1 x = k0_pay2 (k0_pay1 (F := F)) x := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S1x1x5120) hz, View.readCov_unit_zero (S := S1x1x5120) _ hz]
  simp only [View.readAt_eq_ld, h2.read_unread, View.ld_unit_zero (S := S1x512x5120) hz]

/-- The last tile: the accumulator as at a middle tile, -/
theorem sout_C (c : Dev nD) (i : grid0.Coords) (a2 : Memref sig .tc .vmem S1x512x5120 .f32) (h2 : a2.IsWhole)
    (a3 : Memref sig .tc .vmem S1x1x5120 .f32) (h3 : a3.IsWhole) (a4 : Memref sig .tc .vmem S1x1x5120 .f32) (h4 : a4.IsWhole)
    (hc0 : ¬cond0_0 i) (hc1 : cond0_1 i) (x : Vec F S1x512x5120 .f32) (xs : Vec F S1x1x5120 .f32) :
    sout0_C_0 c i a2 h2 a3 h3 a4 h4 hc0 hc1 x xs = k0_pay2 xs x := by
  unfold sout0_C_0
  rw [View.read_writes_eq_canon _ _ _ (scover0_C_0 c i a2 h2 a3 h3 a4 h4 hc0 hc1 x xs)]
  unfold kernelRun0_C
  dsimp only
  sl_unfold_words
  rw [View.canon_unit_zero hz]
  simp only [View.readAt_eq_ld, h4.read_unread, h2.read_unread, View.ld_unit_zero (S := S1x1x5120) hz,
    View.ld_unit_zero (S := S1x512x5120) hz]

/-- and the output block receives what the accumulator then holds. -/
theorem out_C (c : Dev nD) (i : grid0.Coords) (a2 : Memref sig .tc .vmem S1x512x5120 .f32) (h2 : a2.IsWhole)
    (a3 : Memref sig .tc .vmem S1x1x5120 .f32) (h3 : a3.IsWhole) (a4 : Memref sig .tc .vmem S1x1x5120 .f32) (h4 : a4.IsWhole)
    (hc0 : ¬cond0_0 i) (hc1 : cond0_1 i) (x : Vec F S1x512x5120 .f32) (xs : Vec F S1x1x5120 .f32) :
    out0_C_1 c i a2 h2 a3 h3 a4 h4 hc0 hc1 x xs = k0_pay2 xs x := by
  unfold out0_C_1
  rw [View.read_writes_eq_canon _ _ _ (cover0_C_1 c i a2 h2 a3 h3 a4 h4 hc0 hc1 x xs)]
  unfold kernelRun0_C
  dsimp only
  sl_unfold_words
  rw [View.canon_unit_zero hz, View.readCov_unit_zero (S := S1x1x5120) _ hz]
  simp only [View.readAt_eq_ld, h4.read_unread, h2.read_unread, View.ld_unit_zero (S := S1x1x5120) hz,
    View.ld_unit_zero (S := S1x512x5120) hz]

end Cert.KernelIdeal.Pieces

end
-- ==== Proof.BlockSums.lean ====
/-
  Sums taken block by block. A sum over the first `B * (s + 1)` terms of a sequence in a commutative monoid is the
  sum over the first `B * s` terms plus the sum of the next block of `B`; addition on the extended reals is a
  commutative monoid, so no finiteness is asked.
-/
import Mathlib.Algebra.BigOperators.Intervals
import Mathlib.Algebra.BigOperators.Fin

namespace Cert.BlockSums

/-- The first `B * (s + 1)` terms are the first `B * s` terms and then the block `B * s + r`, `r < B`. -/
theorem sum_range_block {M : Type} [AddCommMonoid M] (B : ℕ) (g : ℕ → M) (s : ℕ) :
    ∑ k ∈ Finset.range (B * (s + 1)), g k
      = ∑ k ∈ Finset.range (B * s), g k + ∑ r : Fin B, g (B * s + r.val) := by
  rw [Nat.mul_succ, Finset.sum_range_add]
  exact congrArg (_ + ·) (Finset.sum_range fun x => g (B * s + x))

/-- The first block alone. -/
theorem sum_range_first {M : Type} [AddCommMonoid M] (B : ℕ) (g : ℕ → M) :
    ∑ k ∈ Finset.range (B * (0 + 1)), g k = ∑ r : Fin B, g (B * 0 + r.val) := by
  rw [sum_range_block, Nat.mul_zero, Finset.range_zero, Finset.sum_empty, zero_add]

end Cert.BlockSums
-- ==== Proof.KernelAcc.lean ====
/-
  The accumulator of the mean-pool kernel, point by point.

  The grid is 8 × 8: point `t = 8 b + s` handles batch row `b` and sequence tile `s` (512 rows of the 4096). The
  scratch is reset to zero at `s = 0`, gains the column sums of the tile at every point, and is copied to the output
  block at `s = 7`. So after point `t` the scratch holds, in column `d`, the sum of `x[b, k, d]` over the first
  `512 (s + 1)` rows `k`; at `s = 7` that is the sum over all 4096 rows, and it is what the output block `b` gets.
  Everything is a sum in the commutative monoid of the extended reals: no finiteness is used.
-/
import proofs.«163014_j8169027797036_1_alg».proof.Proof.KernelPieces
import proofs.«163014_j8169027797036_1_alg».proof.Proof.BlockSums
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

/-! ## The body's arithmetic at an index -/

/-- The reset value is zero in every column. -/
theorem pay1_apply (j : S1x1x5120.Idx) : k0_pay1 (F := Ideal) j = 0 := by
  unfold k0_pay1
  rw [shapeCast_self]
  exact Ideal.ofBits_zero_f32

/-- The column sums of a tile: the lane reduction over the 512 rows at column `d`. -/
theorem colsum_apply (x : Vec Ideal S1x512x5120 .f32) (d : Fin 5120) :
    multiReduction (F := Ideal) .add [1] S1x5120 x 0x00000000#32 reduces_S1x512x5120_S1x5120 (.inl rfl) rfl (ix2 (0 : Fin 1) d)
      = ∑ r : Fin 512, x (ix3 (0 : Fin 1) r d) := by
  refine (Ideal.multiReduction_add_single x 0x00000000#32 reduces_S1x512x5120_S1x5120 (.inl rfl) rfl (ix2 (0 : Fin 1) d)).trans ?_
  refine Finset.sum_congr rfl fun r _ => congrArg x (funext fun a => Fin.ext ?_)
  match a with
  | ⟨0, _⟩ => rfl
  | ⟨1, _⟩ => rfl
  | ⟨2, _⟩ => rfl

/-- The accumulate step in column `d`: what was there plus the tile's column sum. -/
theorem pay2_apply (xs : Vec Ideal S1x1x5120 .f32) (x : Vec Ideal S1x512x5120 .f32) (d : Fin 5120) :
    k0_pay2 (F := Ideal) xs x (ix3 (0 : Fin 1) (0 : Fin 1) d)
      = xs (ix3 (0 : Fin 1) (0 : Fin 1) d) + ∑ r : Fin 512, x (ix3 (0 : Fin 1) r d) := by
  unfold k0_pay2
  rw [shapeCast_self]
  refine (addf_apply _ _ _).trans ?_
  refine congrArg (xs (ix3 (0 : Fin 1) (0 : Fin 1) d) + ·) ?_
  refine (shapeCast_ab_1ab_apply _ shapeCasts_S1x5120_S1x1x5120 (0 : Fin 1) (0 : Fin 1) d).trans ?_
  exact colsum_apply x d

/-! ## The tiles of the input -/

variable (m : (ℓ : Loc nD τ sig) → Buf (Elt Ideal) ℓ)

/-- The input array `x : [8, 4096, 5120]` as launched. -/
abbrev xarr (c : Dev nD) : Vec Ideal S8x4096x5120 .f32 := m ((c : Thread nD τ).loc main_arg1)

/-- The tile the body reads at point `t`. -/
abbrev tile (c : Dev nD) (t : Fin cfg0.N) : Vec Ideal S1x512x5120 .f32 := iblk m c 0 t

/-- Column `d` of batch row `b` as a sequence along the reduced axis, zero past its end. -/
def col (c : Dev nD) (b : ℕ) (d : Fin 5120) (k : ℕ) : EReal :=
  if h : b < 8 ∧ k < 4096 then xarr m c (ix3 (⟨b, h.1⟩ : Fin 8) (⟨k, h.2⟩ : Fin 4096) d) else 0

/-- The input window's block index at point `t`: (batch row, sequence tile, 0). -/
theorem idx_in : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- Row `r`, column `d` of the tile at point `t` is entry `512 (t mod 8) + r` of column `d` of batch row `t / 8`. -/
theorem tile_apply (c : Dev nD) (t : Fin cfg0.N) (r : Fin 512) (d : Fin 5120) :
    tile m c t (ix3 (0 : Fin 1) r d) = col m c (t.val / 8) d (512 * (t.val % 8) + r.val) := by
  have hN : t.val < 64 := lt_of_lt_of_eq t.isLt (show cfg0.N = 64 from N_0)
  have hb : t.val / 8 < 8 ∧ 512 * (t.val % 8) + r.val < 4096 := by have := r.isLt; omega
  obtain ⟨e0, e1, e2⟩ := idx_in t
  unfold col
  rw [dif_pos hb]
  unfold tile iblk
  rw [View.read_apply]
  show V m c main_arg1 (((cfg0.win 0).blk t).view.emb (ix3 (0 : Fin 1) r d)) = _
  rw [V_main_arg1]
  refine congrArg (m ((c : Thread nD τ).loc main_arg1)) (funext fun a => Fin.ext ?_)
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 5120 + 1 * d.val = d.val; omega

/-- The tile's column sum is the sum of the matching stretch of the column. -/
theorem tile_sum (c : Dev nD) (t : Fin cfg0.N) (d : Fin 5120) :
    ∑ r : Fin 512, tile m c t (ix3 (0 : Fin 1) r d) = ∑ r : Fin 512, col m c (t.val / 8) d (512 * (t.val % 8) + r.val) :=
  Finset.sum_congr rfl fun r _ => tile_apply m c t r d

/-! ## One point of the grid -/

/-- At the first tile of a batch row the scratch is reset and then gains the tile's column sums. -/
theorem scratch_first (c : Dev nD) (t : Fin cfg0.N) (h0 : t.val % 8 = 0) (h1 : ¬t.val % 8 = 7) (d : Fin 5120) :
    (outsAt0 m c t.val t.isLt).2 (ix3 (0 : Fin 1) (0 : Fin 1) d) = ∑ r : Fin 512, tile m c t (ix3 (0 : Fin 1) r d) := by
  rw [outsAt0_A m c t h0 h1]
  dsimp only
  refine (congrFun (Pieces.sout_A (F := Ideal) c (grid0.coords t) (ms0_0 t) (hs0_0 t) (ms0_1 t) (hs0_1 t) scM0_0
    (Memref.isWhole_whole _) ((hcond0_0 t).mpr h0) (fun h => h1 ((hcond0_1 t).mp h)) (tile m c t)) (ix3 (0 : Fin 1) (0 : Fin 1) d)).trans ?_
  refine (pay2_apply _ (tile m c t) d).trans ?_
  rw [pay1_apply, zero_add]

/-- At a middle tile the scratch gains the tile's column sums over what the point before left. -/
theorem scratch_mid (c : Dev nD) (t : Fin cfg0.N) (h0 : ¬t.val % 8 = 0) (h1 : ¬t.val % 8 = 7) (d : Fin 5120) :
    (outsAt0 m c t.val t.isLt).2 (ix3 (0 : Fin 1) (0 : Fin 1) d)
      = (outsAt0 m c (t.val - 1) (Nat.lt_of_le_of_lt (Nat.sub_le _ _) t.isLt)).2 (ix3 (0 : Fin 1) (0 : Fin 1) d)
        + ∑ r : Fin 512, tile m c t (ix3 (0 : Fin 1) r d) := by
  rw [outsAt0_B m c t h0 h1]
  dsimp only
  refine (congrFun (Pieces.sout_B (F := Ideal) c (grid0.coords t) (ms0_0 t) (hs0_0 t) (ms0_1 t) (hs0_1 t) scM0_0
    (Memref.isWhole_whole _) (fun h => h0 ((hcond0_0 t).mp h)) (fun h => h1 ((hcond0_1 t).mp h)) (tile m c t)
    (outsAt0 m c (t.val - 1) (Nat.lt_of_le_of_lt (Nat.sub_le _ _) t.isLt)).2) (ix3 (0 : Fin 1) (0 : Fin 1) d)).trans ?_
  exact pay2_apply _ (tile m c t) d

/-- At the last tile likewise, -/
theorem scratch_last (c : Dev nD) (t : Fin cfg0.N) (h0 : ¬t.val % 8 = 0) (h1 : t.val % 8 = 7) (d : Fin 5120) :
    (outsAt0 m c t.val t.isLt).2 (ix3 (0 : Fin 1) (0 : Fin 1) d)
      = (outsAt0 m c (t.val - 1) (Nat.lt_of_le_of_lt (Nat.sub_le _ _) t.isLt)).2 (ix3 (0 : Fin 1) (0 : Fin 1) d)
        + ∑ r : Fin 512, tile m c t (ix3 (0 : Fin 1) r d) := by
  rw [outsAt0_C m c t h0 h1]
  dsimp only
  refine (congrFun (Pieces.sout_C (F := Ideal) c (grid0.coords t) (ms0_0 t) (hs0_0 t) (ms0_1 t) (hs0_1 t) scM0_0
    (Memref.isWhole_whole _) (fun h => h0 ((hcond0_0 t).mp h)) ((hcond0_1 t).mpr h1) (tile m c t)
    (outsAt0 m c (t.val - 1) (Nat.lt_of_le_of_lt (Nat.sub_le _ _) t.isLt)).2) (ix3 (0 : Fin 1) (0 : Fin 1) d)).trans ?_
  exact pay2_apply _ (tile m c t) d

/-- and the output block receives the same values. -/
theorem out_last (c : Dev nD) (t : Fin cfg0.N) (h0 : ¬t.val % 8 = 0) (h1 : t.val % 8 = 7) (d : Fin 5120) :
    (outsAt0 m c t.val t.isLt).1 (ix3 (0 : Fin 1) (0 : Fin 1) d)
      = (outsAt0 m c (t.val - 1) (Nat.lt_of_le_of_lt (Nat.sub_le _ _) t.isLt)).2 (ix3 (0 : Fin 1) (0 : Fin 1) d)
        + ∑ r : Fin 512, tile m c t (ix3 (0 : Fin 1) r d) := by
  rw [outsAt0_C m c t h0 h1]
  dsimp only
  refine (congrFun (Pieces.out_C (F := Ideal) c (grid0.coords t) (ms0_0 t) (hs0_0 t) (ms0_1 t) (hs0_1 t) scM0_0
    (Memref.isWhole_whole _) (fun h => h0 ((hcond0_0 t).mp h)) ((hcond0_1 t).mpr h1) (tile m c t)
    (outsAt0 m c (t.val - 1) (Nat.lt_of_le_of_lt (Nat.sub_le _ _) t.isLt)).2) (ix3 (0 : Fin 1) (0 : Fin 1) d)).trans ?_
  exact pay2_apply _ (tile m c t) d

/-! ## The running sum -/

/-- AFTER POINT `n` the scratch holds, in column `d`, the sum of the first `512 (n mod 8 + 1)` entries of column `d`
    of batch row `n / 8`: by induction on the point, the reset starting a new row's sum. -/
theorem acc_eq (c : Dev nD) : ∀ (n : ℕ) (h : n < cfg0.N) (d : Fin 5120),
    (outsAt0 m c n h).2 (ix3 (0 : Fin 1) (0 : Fin 1) d)
      = ∑ k ∈ Finset.range (512 * (n % 8 + 1)), col m c (n / 8) d k := by
  intro n
  induction n with
  | zero =>
    intro h d
    refine (scratch_first m c ⟨0, h⟩ rfl (by dsimp only; omega) d).trans ?_
    refine (tile_sum m c ⟨0, h⟩ d).trans ?_
    dsimp only
    simp only [Nat.zero_div, Nat.zero_mod]
    exact (BlockSums.sum_range_first 512 (col m c 0 d)).symm
  | succ n ih =>
    intro h d
    have hN : n + 1 < 64 := lt_of_lt_of_eq h (show cfg0.N = 64 from N_0)
    by_cases h0 : (n + 1) % 8 = 0
    · refine (scratch_first m c ⟨n + 1, h⟩ h0 (by dsimp only; omega) d).trans ?_
      refine (tile_sum m c ⟨n + 1, h⟩ d).trans ?_
      dsimp only
      rw [h0]
      exact (BlockSums.sum_range_first 512 (col m c ((n + 1) / 8) d)).symm
    · have hq : (n + 1) / 8 = n / 8 := by omega
      have hr : (n + 1) % 8 = n % 8 + 1 := by omega
      have step : (outsAt0 m c (n + 1) h).2 (ix3 (0 : Fin 1) (0 : Fin 1) d)
          = (outsAt0 m c n (Nat.lt_of_succ_lt h)).2 (ix3 (0 : Fin 1) (0 : Fin 1) d)
            + ∑ r : Fin 512, tile m c ⟨n + 1, h⟩ (ix3 (0 : Fin 1) r d) := by
        by_cases h1 : (n + 1) % 8 = 7
        · exact scratch_last m c ⟨n + 1, h⟩ h0 h1 d
        · exact scratch_mid m c ⟨n + 1, h⟩ h0 h1 d
      rw [step, ih (Nat.lt_of_succ_lt h) d, tile_sum m c ⟨n + 1, h⟩ d]
      dsimp only
      rw [hq, hr]
      exact (BlockSums.sum_range_block 512 (col m c (n / 8) d) (n % 8 + 1)).symm

end Cert.KernelIdeal.Acc

end
-- ==== Proof.KernelArray.lean ====
/-
  The array the mean-pool kernel leaves: `[8, 1, 5120]`, entry `(b, 0, d)` the sum of `x[b, k, d]` over all 4096
  rows `k`. The output block of batch row `b` is written back once, after the row's last tile (point `8 b + 7`), when
  the running sum has reached the whole column; the eight blocks tile the array.
-/
import proofs.«163014_j8169027797036_1_alg».proof.Proof.KernelAcc

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- The column sums of an `[8, 4096, 5120]` array, kept as `[8, 1, 5120]`. -/
def colsums (x : Vec Ideal S8x4096x5120 .f32) : Vec Ideal S8x1x5120 .f32 :=
  fun j => ∑ k : Fin 4096, x (ix3 (⟨(j 0).val, (j 0).isLt⟩ : Fin 8) k (⟨(j 2).val, (j 2).isLt⟩ : Fin 5120))

/-- A whole column's sum, over `Finset.range` of the zero-extended sequence, is the sum over the 4096 rows. -/
theorem col_total (c : Dev nD) (b : Fin 8) (d : Fin 5120) :
    ∑ k ∈ Finset.range 4096, col m c b.val d k = ∑ k : Fin 4096, xarr m c (ix3 b k d) := by
  rw [Finset.sum_range]
  refine Finset.sum_congr rfl fun k _ => ?_
  unfold col
  rw [dif_pos ⟨b.isLt, k.isLt⟩]

/-- After a batch row's last tile the output block holds the row's whole column sums. -/
theorem out_total (c : Dev nD) (t : Fin cfg0.N) (h1 : t.val % 8 = 7) (d : Fin 5120) :
    (outsAt0 m c t.val t.isLt).1 (ix3 (0 : Fin 1) (0 : Fin 1) d) = ∑ k ∈ Finset.range 4096, col m c (t.val / 8) d k := by
  have hN : t.val < 64 := lt_of_lt_of_eq t.isLt (show cfg0.N = 64 from N_0)
  have h0 : ¬t.val % 8 = 0 := by omega
  rw [out_last m c t h0 h1 d, acc_eq m c (t.val - 1) _ d, tile_sum m c t d]
  have hq : (t.val - 1) / 8 = t.val / 8 := by omega
  have hr : (t.val - 1) % 8 + 1 = 7 := by omega
  rw [hq, hr, h1]
  exact (BlockSums.sum_range_block 512 (col m c (t.val / 8) d) 7).symm

/-! ## From the blocks to the array -/

/-- The output window's block index at point `t`: (batch row, 0, 0). -/
theorem idx_out : ∀ t : Fin cfg0.N, win0_1.index t (0 : Fin 3) = t.val / 8 ∧ win0_1.index t (1 : Fin 3) = 0
    ∧ win0_1.index t (2 : Fin 3) = 0 :=
  (by decide +kernel : ∀ t : Fin grid0.N, _)

/-- WHAT A WRITE-BACK WRITES: at a batch row's last tile, block `t / 8` of the column sums. -/
theorem flushed_eq (c : Dev nD) (t : Fin cfg0.N) (hf : (cfg0.win 1).flush t = true) :
    (dats m 0 c).flushed 1 t = ((cfg0.win 1).blk t).view.read (Elt Ideal) (colsums (xarr m c)) := by
  have h1 : t.val % 8 = 7 := (flush0_1 t).mp hf
  have hN : t.val < 64 := lt_of_lt_of_eq t.isLt (show cfg0.N = 64 from N_0)
  obtain ⟨e0, e1, e2⟩ := idx_out t
  show (cfg0.win 1).cut (grid0.coords t) ((dats m 0 c).after 1 t) = _
  rw [after0_1]
  funext y
  show (outsAt0 m c t.val t.isLt).1 y = colsums (xarr m c) (((cfg0.win 1).blk t).view.emb y)
  have hy0 : (y 0).val < 1 := (y 0).isLt
  have hy1 : (y 1).val < 1 := (y 1).isLt
  have hy2 : (y 2).val < 5120 := (y 2).isLt
  have hy : y = ix3 (0 : Fin 1) (0 : Fin 1) (⟨(y 2).val, hy2⟩ : Fin 5120) := by
    funext a
    match a with
    | ⟨0, _⟩ => exact Fin.ext (by show (y 0).val = 0; omega)
    | ⟨1, _⟩ => exact Fin.ext (by show (y 1).val = 0; omega)
    | ⟨2, _⟩ => exact Fin.ext rfl
  rw [hy, out_total m c t h1, col_total m c ⟨t.val / 8, by omega⟩]
  unfold colsums
  refine Finset.sum_congr rfl fun k _ => congrArg (xarr m c) (funext fun a => Fin.ext ?_)
  match a with
  | ⟨0, _⟩ => show t.val / 8 = win0_1.index t (0 : Fin 3) * 1 + 1 * 0; omega
  | ⟨1, _⟩ => rfl
  | ⟨2, _⟩ => show (y 2).val = win0_1.index t (2 : Fin 3) * 5120 + 1 * (y 2).val; omega

/-- An index of the array is in point `t`'s block iff each coordinate is in the block's range on its axis. -/
theorem mem_blk (t : Fin cfg0.N) (i : S8x1x5120.Idx) :
    i ∈ ((cfg0.win 1).blk t).view.set ↔ ∀ a : Fin 3, win0_1.index t a * S1x1x5120.size a ≤ (i a).val
      ∧ (i a).val < win0_1.index t a * S1x1x5120.size a + S1x1x5120.size a := by
  show i ∈ ((View.whole main_v11).slice (win0_1.rect t)).set ↔ _
  rw [View.set_slice_whole, Rect.mem_set_unit]
  exact Iff.rfl

/-- Every index of the array lies in the block written back after its batch row's last tile. -/
theorem covered (i : S8x1x5120.Idx) :
    ∃ t : Fin cfg0.N, (cfg0.win 1).flush t = true ∧ i ∈ ((cfg0.win 1).blk t).view.set := by
  have hi0 : (i 0).val < 8 := (i 0).isLt
  have hi1 : (i 1).val < 1 := (i 1).isLt
  have hi2 : (i 2).val < 5120 := (i 2).isLt
  have hN : cfg0.N = 64 := N_0
  refine ⟨⟨8 * (i 0).val + 7, by rw [hN]; omega⟩, (flush0_1 _).mpr (by dsimp only; omega), ?_⟩
  rw [mem_blk]
  obtain ⟨e0, e1, e2⟩ := idx_out ⟨8 * (i 0).val + 7, by rw [hN]; omega⟩
  dsimp only at e0 e1 e2
  intro a
  match a with
  | ⟨0, _⟩ =>
    show win0_1.index _ (0 : Fin 3) * 1 ≤ (i 0).val ∧ (i 0).val < win0_1.index _ (0 : Fin 3) * 1 + 1
    omega
  | ⟨1, _⟩ =>
    show win0_1.index _ (1 : Fin 3) * 1 ≤ (i 1).val ∧ (i 1).val < win0_1.index _ (1 : Fin 3) * 1 + 1
    omega
  | ⟨2, _⟩ =>
    show win0_1.index _ (2 : Fin 3) * 5120 ≤ (i 2).val ∧ (i 2).val < win0_1.index _ (2 : Fin 3) * 5120 + 5120
    omega

/-- THE ARRAY after the region: the column sums of the input as launched. -/
theorem final (c : Dev nD) : (dats m 0 c).arrAt 1 cfg0.N = colsums (xarr m c) :=
  (dats m 0 c).arrAt_eq_of_cover 1 (colsums (xarr m c)) (fun t hf => flushed_eq m c t hf) covered

end Cert.KernelIdeal.Acc

end
-- ==== Proof.KernelRun.lean ====
/-
  The kernel's program, run: the first result is `fused` of the column sums of the hidden states (the array the
  region leaves, reshaped to `[8, 5120]`), the second `xnorm` of the first argument; the arguments end as launched.
-/
import proofs.«163014_j8169027797036_1_alg».proof.Proof.KernelTail
import proofs.«163014_j8169027797036_1_alg».proof.Proof.KernelArray

noncomputable section

open Idealize.ShloMosaic Idealize.ShloMosaic.TcCoe Idealize.SL.Sem
open Idealize.ShloMosaic.Pipeline (Dat)

namespace Cert.KernelIdeal.Run

open Cert.KernelIdeal Cert.KernelIdeal.Gen

/-- Every weakly fair execution of the idealized kernel program terminates with its results at these values. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
        = Tail.fused (F := Ideal) (shapeCast S8x5120 (Acc.colsums (m ((c.tc : Thread nD τ).loc main_arg1))) shapeCasts_S8x1x5120_S8x5120)
            (m ((c.tc : Thread nD τ).loc main_arg0)) (m ((c.tc : Thread nD τ).loc main_arg2)) (m ((c.tc : Thread nD τ).loc main_arg3))
      ∧ r.2.mem ((c.tc : Thread nD τ).loc main_v10) = Tail.xnorm (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v27 (Pipeline.mem_restRefs_of main_v27 (by decide) (by decide))).trans
        ((Tail.tail_v27 m c).trans (by rw [Acc.final m c])),
      ((h c).2 main_v10 (Pipeline.mem_restRefs_of main_v10 (by decide) (by decide))).trans (Tail.tail_v10 m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefTail.lean ====
/-
  The reference program: its two results as the same two functions of the arguments, the first applied to the
  sequence sums of the hidden states that `jnp.mean` takes on the host; and that host sum read at an index.
-/
import proofs.«163014_j8169027797036_1_alg».proof.Proof.Gen.ReferenceIdeal.Read
import Idealize.ShloMosaic.Lib.ValueIdx
import Idealize.ShloMosaic.PureOps.Ideal.Laws

noncomputable section

open Idealize.ShloMosaic Idealize.ShloMosaic.TcCoe Idealize.SL.Sem Idealize.ShloMosaic.StableHlo
open Idealize.ShloMosaic.ValueIdx

namespace Cert.ReferenceIdeal.Tail

open Cert.ReferenceIdeal Cert.ReferenceIdeal.Gen

variable {F : FTy → Type} [FloatOps F]

/-- The series branch: the mean over the 7 channels, projected by `W`, plus the bias. -/
def seriesEmb (x : FVec F S8x7x45 .f32) (W : FVec F S45x5120 .f32) (b : FVec F S5120 .f32) : FVec F S8x5120 .f32 :=
  addf (Host.dotGeneral dot_S8x45_S45x5120_S8x5120_1_0_0_1_n_n none
      (Host.divf (Host.reduceAdd x (constant (F := F) S_ .f32 0x00000000#32) reducesTo_S8x7x45_S8x45_d1 h_S_)
        (broadcastInDim S8x45 ![] bcast_S_S8x45 (constant (F := F) S_ .f32 0x40E00000#32))) W)
    (broadcastInDim S8x5120 ![0, 1] bcast_S1x5120_S8x5120_0_1 (broadcastInDim S1x5120 ![1] bcast_S5120_S1x5120_1 b))

/-- The Euclidean norm of each row, kept as a column and clamped below by the literal `0x2B8CBCCC`. -/
def rowNorm (e : FVec F S8x5120 .f32) : FVec F S8x1 .f32 :=
  maximumf (Host.sqrt (broadcastInDim S8x1 ![0] bcast_S8_S8x1_0
      (Host.reduceAdd (mulf e e) (constant (F := F) S_ .f32 0x00000000#32) reducesTo_S8x5120_S8_d1 h_S_)))
    (broadcastInDim S8x1 ![] bcast_S_S8x1 (constant (F := F) S_ .f32 0x2B8CBCCC#32))

/-- THE FIRST RESULT as a function of the sequence sums `S : [8, 5120]` of the hidden states and of the other three
    arguments: `S / 4096` plus the series branch divided by its clamped row norms. -/
def fused (S : FVec F S8x5120 .f32) (x : FVec F S8x7x45 .f32) (W : FVec F S45x5120 .f32) (b : FVec F S5120 .f32) :
    FVec F S8x5120 .f32 :=
  addf (Host.divf S (broadcastInDim S8x5120 ![] bcast_S_S8x5120 (constant (F := F) S_ .f32 0x45800000#32)))
    (Host.divf (seriesEmb x W b) (broadcastInDim S8x5120 ![0, 1] bcast_S8x1_S8x5120_0_1 (rowNorm (seriesEmb x W b))))

/-- The minimum of each (batch, channel) row over time, kept as `[8, 7, 1]`. -/
def rowMin (x : FVec F S8x7x45 .f32) : FVec F S8x7x1 .f32 :=
  broadcastInDim S8x7x1 ![0, 1] bcast_S8x7_S8x7x1_0_1
    (Host.reduce FloatOps.minimumf x (constant (F := F) S_ .f32 0x7F800000#32) reducesTo_S8x7x45_S8x7_d2 h_S_)

/-- The maximum likewise. -/
def rowMax (x : FVec F S8x7x45 .f32) : FVec F S8x7x1 .f32 :=
  broadcastInDim S8x7x1 ![0, 1] bcast_S8x7_S8x7x1_0_1
    (Host.reduce FloatOps.maximumf x (constant (F := F) S_ .f32 0xFF800000#32) reducesTo_S8x7x45_S8x7_d2 h_S_)

/-- THE SECOND RESULT: the min–max normalisation of `x` over time, `x` itself where a row's maximum is not above its
    minimum. -/
def xnorm (x : FVec F S8x7x45 .f32) : FVec F S8x7x45 .f32 :=
  select (broadcastInDim S8x7x45 ![0, 1, 2] bcast_S8x7x1_S8x7x45_0_1_2 (cmpf .ogt (rowMax x) (rowMin x)))
    (Host.divf (subf x (broadcastInDim S8x7x45 ![0, 1, 2] bcast_S8x7x1_S8x7x45_0_1_2 (rowMin x)))
      (broadcastInDim S8x7x45 ![0, 1, 2] bcast_S8x7x1_S8x7x45_0_1_2 (subf (rowMax x) (rowMin x))))
    x

/-- The host's sum of the hidden states over the sequence axis. -/
def seqSum (h : FVec F S8x4096x5120 .f32) : FVec F S8x5120 .f32 :=
  Host.reduceAdd h (constant (F := F) S_ .f32 0x00000000#32) reducesTo_S8x4096x5120_S8x5120_d1 h_S_

/-- The reference's run with its results named: the first is `fused` of the host's sequence sums, the second
    `xnorm`; the arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = fused (seqSum (m ((c.tc : Thread nD τ).loc main_arg1))) (m ((c.tc : Thread nD τ).loc main_arg0))
            (m ((c.tc : Thread nD τ).loc main_arg2)) (m ((c.tc : Thread nD τ).loc main_arg3))
      ∧ r.2.mem ((c.tc : Thread nD τ).loc main_v10) = xnorm (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

/-- Over the extended reals the host's sum at `(b, d)` is the sum of `h[b, k, d]` over the 4096 rows `k` (its
    initial value is the zero word). -/
theorem seqSum_apply (h : FVec Ideal S8x4096x5120 .f32) (b : Fin 8) (d : Fin 5120) :
    seqSum (F := Ideal) h (ix2 b d) = ∑ k : Fin 4096, h (ix3 b k d) := by
  refine (Cert.ReferenceIdeal.Read.val_main_v11_apply h (ix2 b d)).trans ?_
  rw [Cert.ReferenceIdeal.Read.val_main_cst_1_apply]
  refine (congrArg (· + _) Ideal.ofBits_zero_f32).trans ?_
  rw [zero_add]
  refine Finset.sum_congr rfl fun k _ => congrArg h (funext fun a => Fin.ext ?_)
  match a with
  | ⟨0, _⟩ => rfl
  | ⟨1, _⟩ => rfl
  | ⟨2, _⟩ => rfl

end Cert.ReferenceIdeal.Tail

end
-- ==== Proof.Bridge.lean ====
/-
  The two programs meet. Both apply the same host operations to the same arguments (`fused`, `xnorm`: one function
  each, spelt once per program); what differs is how the hidden states are summed over the sequence axis. The
  kernel sums 8 tiles of 512 rows into an accumulator and the host sums the 4096 rows at once: the same sum in the
  commutative monoid of the extended reals.
-/
import proofs.«163014_j8169027797036_1_alg».proof.Proof.KernelRun
import proofs.«163014_j8169027797036_1_alg».proof.Proof.RefTail

noncomputable section

open Idealize.ShloMosaic Idealize.ShloMosaic.TcCoe Idealize.SL.Sem Idealize.ShloMosaic.ValueIdx

namespace Cert.Bridge

/-- The first result's function is one function, whichever program spells it. -/
theorem fused_eq (S : FVec Ideal Cert.KernelIdeal.S8x5120 .f32) (x : FVec Ideal Cert.KernelIdeal.S8x7x45 .f32)
    (W : FVec Ideal Cert.KernelIdeal.S45x5120 .f32) (b : FVec Ideal Cert.KernelIdeal.S5120 .f32) :
    Cert.KernelIdeal.Tail.fused (F := Ideal) S x W b = Cert.ReferenceIdeal.Tail.fused (F := Ideal) S x W b := rfl

/-- So is the second's. -/
theorem xnorm_eq (x : FVec Ideal Cert.KernelIdeal.S8x7x45 .f32) :
    Cert.KernelIdeal.Tail.xnorm (F := Ideal) x = Cert.ReferenceIdeal.Tail.xnorm (F := Ideal) x := rfl

/-- The kernel's column sums, reshaped from `[8, 1, 5120]` to `[8, 5120]`, are the host's sum over the sequence
    axis: at `(b, d)` both are the sum of `h[b, k, d]` over the 4096 rows. -/
theorem sums_eq (h : FVec Ideal Cert.KernelIdeal.S8x4096x5120 .f32) :
    shapeCast Cert.KernelIdeal.S8x5120 (Cert.KernelIdeal.Acc.colsums h) Cert.KernelIdeal.Gen.shapeCasts_S8x1x5120_S8x5120
      = Cert.ReferenceIdeal.Tail.seqSum (F := Ideal) h := by
  funext i
  obtain ⟨b, d, rfl⟩ : ∃ (b : Fin 8) (d : Fin 5120), i = ix2 b d := ⟨i 0, i 1, eq_ix2 i⟩
  rw [Cert.ReferenceIdeal.Tail.seqSum_apply]
  refine (shapeCast_apply _ _ (ix2 b d) (ix3 b (0 : Fin 1) d) ?_).trans ?_
  · rw [Shape.rowMajor_val_three, Shape.rowMajor_val_two]
    show (b.val * 1 + 0) * 5120 + d.val = b.val * 5120 + d.val
    omega
  · unfold Cert.KernelIdeal.Acc.colsums
    refine Finset.sum_congr rfl fun k _ => congrArg h (funext fun a => Fin.ext ?_)
    match a with
    | ⟨0, _⟩ => rfl
    | ⟨1, _⟩ => rfl
    | ⟨2, _⟩ => rfl

end Cert.Bridge

end
-- ==== Proof.lean ====
/-
  The certificate of the mean-pool kernel against its jnp reference.

  The kernel program computes, on the host, the min–max normalisation of `x` (the second result) and the series
  branch (mean over channels, projection, bias, division by the clamped row norm), and in a pallas_call the sum of
  the hidden states over the sequence axis: a grid of 8 batch rows × 8 tiles of 512 rows, an accumulator reset at a
  row's first tile and copied out after its last. The first result is that sum divided by 4096 plus the series branch.
  The reference applies the very same host operations and takes the sequence sum by one host reduction.

  At the ideal instance the two sums are one: the accumulator after tile `s` of row `b` holds the sum of the first
  `512 (s + 1)` rows (induction on the grid point), so the written-back block holds the sum of all 4096, which is the
  host's `0 + ∑`. Only associativity and commutativity of addition on the extended reals are used, so the
  precondition is never opened. The ideal pass rewrote nothing: `preserves` is `True`. The two kernel frames are the
  generated ones; the reference's frame is its generated run with the results dropped.
-/
import proofs.«163014_j8169027797036_1_alg».proof.Defs
import proofs.«163014_j8169027797036_1_alg».proof.Proof.Gen.Kernel
import proofs.«163014_j8169027797036_1_alg».proof.Proof.Gen.Kernel.Frame
import proofs.«163014_j8169027797036_1_alg».proof.Proof.Gen.KernelIdeal
import proofs.«163014_j8169027797036_1_alg».proof.Proof.Gen.KernelIdeal.Frame
import proofs.«163014_j8169027797036_1_alg».proof.Proof.Gen.ReferenceIdeal
import proofs.«163014_j8169027797036_1_alg».proof.Proof.Gen.Pre_finite_inputs
import proofs.«163014_j8169027797036_1_alg».proof.Proof.Gen.ReferenceIdeal.Run
import proofs.«163014_j8169027797036_1_alg».proof.Proof.Gen.ReferenceIdeal.Read
import proofs.«163014_j8169027797036_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the four arguments the two idealized programs end with equal results: the second
    results are one function of `x`; the first are one function of the sequence sums of the hidden states and the
    other arguments, and the sequence sums agree (`Bridge.sums_eq`). -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Tail.run (F := Ideal) m' ρ')
  · rw [(hagree c).1, (hagree c).2.1, (hagree c).2.2.1, (hagree c).2.2.2, ← Cert.Bridge.sums_eq]
    exact (Cert.Bridge.fused_eq _ _ _ _).symm
  · rw [(hagree c).1]
    exact (Cert.Bridge.xnorm_eq _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
